-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2048x4096 .f32) (main_arg1 : FVec F S4096x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S2048x4096 : Shape := ⟨2, ![2048, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S2048x122880 : Shape := ⟨2, ![2048, 122880]⟩
abbrev S2048x1024 : Shape := ⟨2, ![2048, 1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x4096, .bf16⟩
  | .hbm, ⟨3, _⟩ => ⟨S4096x4096, .bf16⟩
  | .hbm, ⟨4, _⟩ => ⟨S2048x4096, .f32⟩
  | .hbm, ⟨5, _⟩ => ⟨S2048x122880, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | .local _ .vmem, ⟨9, _⟩ => ⟨S2048x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 30], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![c0_i32.toNat, v1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  bitsLt_bf16_f32 : FTy.bits .bf16 < FTy.bits .f32
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1024x1024_S1024x1024_0_0 : ∀ a, (![0, 0] : Fin 2 → Nat) a + S1024x1024.size a ≤ S1024x1024.size a
  h_S1024x1024 : 0 < S1024x1024.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S2048x4096.size a
  hwx0_0 : ∀ i : grid0.Coords, EltTy.bits .bf16 = 32 ∨ (Rect.block (s := S2048x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x4096.size a
  hwx0_2 : ∀ i : grid0.Coords, EltTy.bits .f32 = 32 ∨ (Rect.block (s := S2048x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x4096.size a
  hwx1_0 : ∀ i : grid1.Coords, EltTy.bits .f32 = 32 ∨ (Rect.block (s := S2048x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S2048x122880.size a
  hwx1_1 : ∀ i : grid1.Coords, EltTy.bits .f32 = 32 ∨ (Rect.block (s := S2048x122880) S2048x1024.size (cc1_transform_1 i) (hinb1_1 i)).WholeWords (EltTy.packing .f32)

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S2048x4096 : Shape := ⟨2, ![2048, 4096]⟩
abbrev S4096x4096 : Shape := ⟨2, ![4096, 4096]⟩
abbrev S1x2048x1x4096 : Shape := ⟨4, ![1, 2048, 1, 4096]⟩
abbrev S1x2048x30x4096 : Shape := ⟨4, ![1, 2048, 30, 4096]⟩
abbrev S2048x122880 : Shape := ⟨2, ![2048, 122880]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S2048x4096, .f32⟩
  | .hbm, ⟨3, _⟩ => ⟨S1x2048x1x4096, .f32⟩
  | .hbm, ⟨4, _⟩ => ⟨S1x2048x30x4096, .f32⟩
  | .hbm, ⟨5, _⟩ => ⟨S2048x122880, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S2048x4096_S1x2048x1x4096 : S2048x4096.ShapeCasts S1x2048x1x4096
  bcast_S1x2048x1x4096_S1x2048x30x4096_0_1_2_3 : S1x2048x1x4096.BroadcastsInDim S1x2048x30x4096 (![0, 1, 2, 3] : Fin 4 → Fin S1x2048x30x4096.rank)
  shapeCasts_S1x2048x30x4096_S2048x122880 : S1x2048x30x4096.ShapeCasts S2048x122880
  dot_S2048x4096_S4096x4096_S2048x4096_1_0_0_1_n_n_wf : DotDims.WF S2048x4096 S4096x4096 S2048x4096 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf

class Facts : Prop extends Facts₀ where

variable [Facts]
-- ==== Proof.Spec.lean ====
/-
  What both programs compute, as one function of the two argument arrays over the extended reals.

  The product matrix: entry (r, j) of `a · b` is the sum over the 4096 inner positions k of `a (r, k) * b (k, j)`.
  The result array is that product's 4096 columns written thirty times side by side: column j of the
  2048 × 122880 result is column `j mod 4096` of the product. Sums on the extended reals are commutative and
  associative, so neither side's order of summation matters and nothing here asks the entries to be finite.
-/
import Idealize.ShloMosaic.PureOps.Ideal
import Idealize.ShloMosaic.Lib.ValueIdx

noncomputable section

open scoped BigOperators

namespace Cert.TiledProduct

open Idealize.ShloMosaic Idealize.ShloMosaic.ValueIdx

/-- Entry (r, j) of the product of a 2048 × 4096 matrix with a 4096 × 4096 matrix: the sum over the inner
    position k of `a (r, k) * b (k, j)`. -/
def product (a : (⟨2, ![2048, 4096]⟩ : Shape).Idx → EReal) (b : (⟨2, ![4096, 4096]⟩ : Shape).Idx → EReal) :
    (⟨2, ![2048, 4096]⟩ : Shape).Idx → EReal :=
  fun i => ∑ k : Fin 4096, a (ix2 (i 0 : Fin 2048) k) * b (ix2 k (i 1 : Fin 4096))

/-- Column j of the wide array read in the 4096-column matrix it repeats: column `j mod 4096`. -/
def baseCol (j : Fin 122880) : Fin 4096 := ⟨j.val % 4096, Nat.mod_lt _ (by decide)⟩

/-- A 2048 × 4096 matrix repeated thirty times along its columns: entry (r, j) is entry (r, j mod 4096). -/
def repeated {α : Type} (v : (⟨2, ![2048, 4096]⟩ : Shape).Idx → α) : (⟨2, ![2048, 122880]⟩ : Shape).Idx → α :=
  fun i => v (ix2 (i 0 : Fin 2048) (baseCol (i 1 : Fin 122880)))

/-- The result: the product, repeated thirty times along its columns. -/
def tiled (a : (⟨2, ![2048, 4096]⟩ : Shape).Idx → EReal) (b : (⟨2, ![4096, 4096]⟩ : Shape).Idx → EReal) :
    (⟨2, ![2048, 122880]⟩ : Shape).Idx → EReal :=
  repeated (product a b)

theorem tiled_apply (a : (⟨2, ![2048, 4096]⟩ : Shape).Idx → EReal) (b : (⟨2, ![4096, 4096]⟩ : Shape).Idx → EReal)
    (i : (⟨2, ![2048, 122880]⟩ : Shape).Idx) :
    tiled a b i = ∑ k : Fin 4096, a (ix2 (i 0 : Fin 2048) k) * b (ix2 k (baseCol (i 1 : Fin 122880))) := rfl

end Cert.TiledProduct

end
-- ==== Proof.ProductValue.lean ====
/-
  The first region, read as a value at the exact instance: what its output array holds after the region, for any contents
  `V` the region is entered from.

  The region's grid is 2 × 4. At point (mi, nj) the body multiplies its left block — rows 1024·mi .. 1024·mi + 1023, all
  4096 columns of the left array — by its right block — all 4096 rows, columns 1024·nj .. 1024·nj + 1023 of the right array —
  into a zero accumulator, and the result is written back as block (mi, nj) of the 2048 × 4096 output array. Entry (p, q) of that
  block is the sum over k of left (1024·mi + p, k) · right (k, 1024·nj + q): entry (1024·mi + p, 1024·nj + q) of the product of the
  two whole arrays. The eight output blocks tile the output array, so it ends as the product.
-/
import proofs.«128283_j82454782148931_1_alg».proof.Proof.Gen.KernelIdeal.Frame
import proofs.«128283_j82454782148931_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProductValue

open Cert.KernelIdeal Cert.KernelIdeal.Gen Cert.TiledProduct
open Idealize.ShloMosaic Idealize.ShloMosaic.TcCoe Idealize.ShloMosaic.ValueIdx Idealize.SL.Sem

variable (V : (c : Dev nD) → (b : Ref sig .tc) → Buf (Elt Ideal) ((c : Thread nD τ).loc b))

theorem zero_off : (![0, 0] : Fin 2 → Nat) = fun _ => 0 := funext fun a => by fin_cases a <;> rfl

/-- The region's two input arrays at their literal types: extended reals, whatever the printed float format. -/
abbrev lhsArr (c : Dev nD) : S2048x4096.Idx → EReal := V c main_v0
abbrev rhsArr (c : Dev nD) : S4096x4096.Idx → EReal := V c main_v1

/-! ## The body's product at an index -/

theorem lhs_axis0 (i : S1024x1024.Idx) (q : dot_S1024x4096_S4096x1024_S1024x1024_1_0_0_1_n_n.contr.Idx) :
    (dot_S1024x4096_S4096x1024_S1024x1024_1_0_0_1_n_n.lhsIdx i q 0).val = (i 0).val := by
  unfold DotDims.lhsIdx
  rw [dif_neg (show ¬(0 : Fin S1024x4096.rank) ∈ dot_S1024x4096_S4096x1024_S1024x1024_1_0_0_1_n_n.lhsBatch by decide), dif_pos (show (0 : Fin S1024x4096.rank) ∈ dot_S1024x4096_S4096x1024_S1024x1024_1_0_0_1_n_n.lhsNonContracting by decide)]
  rfl
theorem lhs_axis1 (i : S1024x1024.Idx) (q : dot_S1024x4096_S4096x1024_S1024x1024_1_0_0_1_n_n.contr.Idx) :
    (dot_S1024x4096_S4096x1024_S1024x1024_1_0_0_1_n_n.lhsIdx i q 1).val = (q ⟨0, by decide⟩).val :=
  dot_S1024x4096_S4096x1024_S1024x1024_1_0_0_1_n_n.lhsIdx_val_of_single rfl i q
theorem rhs_axis0 (i : S1024x1024.Idx) (q : dot_S1024x4096_S4096x1024_S1024x1024_1_0_0_1_n_n.contr.Idx) :
    (dot_S1024x4096_S4096x1024_S1024x1024_1_0_0_1_n_n.rhsIdx i q 0).val = (q ⟨0, by decide⟩).val :=
  dot_S1024x4096_S4096x1024_S1024x1024_1_0_0_1_n_n.rhsIdx_val_of_single rfl i q
theorem rhs_axis1 (i : S1024x1024.Idx) (q : dot_S1024x4096_S4096x1024_S1024x1024_1_0_0_1_n_n.contr.Idx) :
    (dot_S1024x4096_S4096x1024_S1024x1024_1_0_0_1_n_n.rhsIdx i q 1).val = (i 1).val := by
  unfold DotDims.rhsIdx
  rw [dif_neg (show ¬(1 : Fin S4096x1024.rank) ∈ dot_S1024x4096_S4096x1024_S1024x1024_1_0_0_1_n_n.rhsBatch by decide), dif_pos (show (1 : Fin S4096x1024.rank) ∈ dot_S1024x4096_S4096x1024_S1024x1024_1_0_0_1_n_n.rhsNonContracting by decide)]
  rfl

/-- The body's stored value at entry (p, q) of the output block: the sum over the inner position k of the left block's
    (p, k) times the right block's (k, q) — the product into a zero accumulator, the casts of a shape to itself dropped. -/
theorem block_product (x0 : Vec Ideal S1024x4096 .bf16) (x1 : Vec Ideal S4096x1024 .bf16) (p : Fin 1024) (q : Fin 1024) :
    k0_pay1 (F := Ideal) x0 x1 (ix2 p q) = ∑ k : Fin 4096, x0 (ix2 p k) * x1 (ix2 k q) := by
  unfold k0_pay1
  rw [shapeCast_self, shapeCast_self]
  show FloatOps.matmul (F := Ideal) dot_S1024x4096_S4096x1024_S1024x1024_1_0_0_1_n_n none (x0 : FVec Ideal S1024x4096 .bf16) (x1 : FVec Ideal S4096x1024 .bf16) (constant S1024x1024 .f32 0x00000000#32) (ix2 p q) = _
  rw [Ideal.matmul_constant_zero_apply, ← Equiv.sum_comp (contrEquiv1 dot_S1024x4096_S4096x1024_S1024x1024_1_0_0_1_n_n 4096 rfl rfl).symm]
  refine Finset.sum_congr rfl fun k _ => ?_
  have hk := contrEquiv1_symm_val dot_S1024x4096_S4096x1024_S1024x1024_1_0_0_1_n_n 4096 rfl rfl k
  have el : dot_S1024x4096_S4096x1024_S1024x1024_1_0_0_1_n_n.lhsIdx (ix2 p q) ((contrEquiv1 dot_S1024x4096_S4096x1024_S1024x1024_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S1024x4096_S4096x1024_S1024x1024_1_0_0_1_n_n.rhsIdx (ix2 p q) ((contrEquiv1 dot_S1024x4096_S4096x1024_S1024x1024_1_0_0_1_n_n 4096 rfl rfl).symm k) = ix2 k q := funext fun a => Fin.ext (by
    match a with
    | ⟨0, _⟩ => exact (rhs_axis0 _ _).trans hk
    | ⟨1, _⟩ => exact rhs_axis1 _ _)
  rw [el, er]

/-! ## From the blocks to the array -/

/-- The three windows' block indices at every grid point: the left window takes row block `mi` and every column, the
    right window every row and column block `nj`, the output window block (mi, nj); mi is below 2 and nj below 4. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) < 2 ∧ win0_2.index t (1 : Fin 2) < 4 :=
  (by decide +kernel : ∀ t : Fin grid0.N, _)

/-- Every one of the 2 × 4 blocks of the output array is some point's output block. -/
theorem block_onto : ∀ (q0 : Fin 2) (q1 : Fin 4), ∃ t : Fin cfg0.N, win0_2.index t = ![q0.val, q1.val] :=
  (by decide +kernel : ∀ (q0 : Fin 2) (q1 : Fin 4), ∃ t : Fin grid0.N, win0_2.index t = ![q0.val, q1.val])

/-- What point `t` writes back is block `t` of the product of the two whole input arrays. -/
theorem flushed_eq (c : Dev nD) (t : Fin cfg0.N) :
    (dat0 V c).flushed 2 t = ((cfg0.win 2).blk t).view.read (Elt Ideal) (product (lhsArr V c) (rhsArr V c)) := by
  show (cfg0.win 2).cut (grid0.coords t) ((dat0 V c).after 2 t) = _
  rw [after0_2]
  unfold out0_2
  rw [View.canon_unit_zero zero_off]
  simp only [View.ld_unit_zero (S := S1024x4096) zero_off, View.ld_unit_zero (S := S4096x1024) zero_off]
  obtain ⟨e0, e1, e2, e3, e4, e5⟩ := block_indices t
  funext j
  obtain ⟨p, q, rfl⟩ : ∃ (p : Fin 1024) (q : Fin 1024), j = ix2 p q := ⟨j 0, j 1, eq_ix2 j⟩
  refine (block_product (iblk0 V c 0 t) (iblk0 V c 1 t) p q).trans ?_
  show (∑ k : Fin 4096, lhsArr V c (((cfg0.win 0).blk t).view.emb (ix2 p k)) * rhsArr V c (((cfg0.win 1).blk t).view.emb (ix2 k q)))
    = product (lhsArr V c) (rhsArr V c) (((cfg0.win 2).blk t).view.emb (ix2 p q))
  unfold product
  refine Finset.sum_congr rfl fun k _ => ?_
  have hl : ((cfg0.win 0).blk t).view.emb (ix2 p k) = ix2 ((((cfg0.win 2).blk t).view.emb (ix2 p q)) 0 : Fin 2048) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 4096 + 1 * k.val = k.val; omega
  have hr : ((cfg0.win 1).blk t).view.emb (ix2 k q) = ix2 k ((((cfg0.win 2).blk t).view.emb (ix2 p q)) 1 : Fin 4096) := by
    funext a; apply Fin.ext
    match a with
    | ⟨0, _⟩ => show win0_1.index t (0 : Fin 2) * 4096 + 1 * k.val = k.val; omega
    | ⟨1, _⟩ => show win0_1.index t (1 : Fin 2) * 1024 + 1 * q.val = win0_2.index t (1 : Fin 2) * 1024 + 1 * q.val; omega
  rw [hl, hr]
  rfl

/-- An index of the output array is in point `t`'s block iff each coordinate is in the block's range on its axis. -/
theorem mem_blk (t : Fin cfg0.N) (i : S2048x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- The output blocks cover the output array: entry (r, j) lies in block (r / 1024, j / 1024). -/
theorem covered (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region: the product of the two input arrays. -/
theorem final (c : Dev nD) : (dat0 V c).arrAt 2 cfg0.N = product (lhsArr V c) (rhsArr V c) :=
  (dat0 V c).arrAt_eq_of_cover 2 (product (lhsArr V c) (rhsArr V c)) (fun t _ => flushed_eq V c t) (covered)

end Cert.KernelIdeal.ProductValue

end
-- ==== Proof.TileValue.lean ====
/-
  The second region, read as a value: what its output array holds after the region, for any contents `V` the region is
  entered from and any float instance.

  The region's grid is 4 × 30. At point (n, r) the body copies its input block — rows 0..2047, columns
  1024·n .. 1024·n + 1023 of the 2048 × 4096 input array — into its output block, which is written back as block
  (0, 4·r + n) of the 2048 × 122880 output array: columns 1024·(4·r + n) .. 1024·(4·r + n) + 1023. A column j of that output
  block therefore holds input column `j mod 4096` (as 4096 = 4 · 1024), whichever repetition r the point is in, and the 120 output
  blocks tile the output array. So the output array ends as the input array repeated thirty times along its columns.
-/
import proofs.«128283_j82454782148931_1_alg».proof.Proof.Gen.KernelIdeal.Frame
import proofs.«128283_j82454782148931_1_alg».proof.Proof.Spec
import Idealize.ShloMosaic.Lib.Pipeline.Value
import Idealize.ShloMosaic.Lib.ValueIdx

set_option maxRecDepth 16384

noncomputable section

namespace Cert.KernelIdeal.TileValue

open Cert.KernelIdeal Cert.KernelIdeal.Gen Cert.TiledProduct
open Idealize.ShloMosaic Idealize.ShloMosaic.TcCoe Idealize.ShloMosaic.ValueIdx Idealize.SL.Sem

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- The input array of the region (the first region's result buffer) at its literal type. -/
abbrev src (c : Dev nD) : Vec F S2048x4096 .f32 := V c main_v2

/-- The body's stored value is the block it loaded: a cast of a shape to itself. -/
theorem copied (x : Vec F S2048x1024 .f32) : k1_pay1 x = x := by
  unfold k1_pay1
  exact shapeCast_self x _

/-- The two windows' block indices at every grid point: both windows take every row (row-block 0); the input's column
    block is below 4 and is the output's column block modulo 4. -/
theorem block_indices : ∀ t : Fin cfg1.N, win1_0.index t (0 : Fin 2) = 0 ∧ win1_1.index t (0 : Fin 2) = 0
    ∧ win1_0.index t (1 : Fin 2) < 4 ∧ win1_1.index t (1 : Fin 2) % 4 = win1_0.index t (1 : Fin 2)
    ∧ win1_1.index t (1 : Fin 2) < 120 :=
  (by decide +kernel : ∀ t : Fin grid1.N, _)

/-- Every one of the 120 column blocks of the output array is some point's output block. -/
theorem block_onto : ∀ q : Fin 120, ∃ t : Fin cfg1.N, win1_1.index t = ![0, q.val] :=
  (by decide +kernel : ∀ q : Fin 120, ∃ t : Fin grid1.N, win1_1.index t = ![0, q.val])

/-- What point `t` writes back is block `t` of the input array repeated along its columns. -/
theorem flushed_eq (c : Dev nD) (t : Fin cfg1.N) :
    (dat1 V c).flushed 1 t = ((cfg1.win 1).blk t).view.read (Elt F) (repeated (src V c)) := by
  show (cfg1.win 1).cut (grid1.coords t) ((dat1 V c).after 1 t) = _
  rw [after1_1]
  unfold out1_1
  rw [View.canon_unit_zero zero_off]
  simp only [View.ld_unit_zero (S := S2048x1024) zero_off]
  rw [copied]
  obtain ⟨e0, e1, e2, e3, e4⟩ := block_indices t
  funext j
  show V c main_v2 (((cfg1.win 0).blk t).view.emb j) = repeated (src V c) (((cfg1.win 1).blk t).view.emb j)
  unfold repeated src
  refine congrArg (V c main_v2) ?_
  funext a; apply Fin.ext
  match a with
  | ⟨0, _⟩ =>
    show win1_0.index t (0 : Fin 2) * 2048 + 1 * (j 0).val = win1_1.index t (0 : Fin 2) * 2048 + 1 * (j 0).val
    omega
  | ⟨1, _⟩ =>
    show win1_0.index t (1 : Fin 2) * 1024 + 1 * (j 1).val = (win1_1.index t (1 : Fin 2) * 1024 + 1 * (j 1).val) % 4096
    have hj : (j 1).val < 1024 := (j 1).isLt
    omega

/-- An index of the output array is in point `t`'s block iff each coordinate is in the block's range on its axis. -/
theorem mem_blk (t : Fin cfg1.N) (i : S2048x122880.Idx) :
    i ∈ ((cfg1.win 1).blk t).view.set ↔ ∀ a : Fin 2, win1_1.index t a * S2048x1024.size a ≤ (i a).val ∧ (i a).val < win1_1.index t a * S2048x1024.size a + S2048x1024.size a := by
  show i ∈ ((View.whole main_v3).slice (win1_1.rect t)).set ↔ _
  rw [View.set_slice_whole, Rect.mem_set_unit]
  exact Iff.rfl

/-- The output blocks cover the output array: column j lies in column block `j / 1024`. -/
theorem covered (i : S2048x122880.Idx) :
    ∃ t : Fin cfg1.N, (cfg1.win 1).flush t = true ∧ i ∈ ((cfg1.win 1).blk t).view.set := by
  have hi0 : (i 0).val < 2048 := (i 0).isLt
  have hi1 : (i 1).val < 122880 := (i 1).isLt
  obtain ⟨t, ht⟩ := block_onto ⟨(i 1).val / 1024, by omega⟩
  have q0 : win1_1.index t (0 : Fin 2) = 0 := congrFun ht 0
  have q1 : win1_1.index t (1 : Fin 2) = (i 1).val / 1024 := congrFun ht 1
  refine ⟨t, flush1_1 t, ?_⟩
  rw [mem_blk]
  intro a
  match a with
  | ⟨0, _⟩ => show win1_1.index t (0 : Fin 2) * 2048 ≤ (i 0).val ∧ (i 0).val < win1_1.index t (0 : Fin 2) * 2048 + 2048; omega
  | ⟨1, _⟩ => show win1_1.index t (1 : Fin 2) * 1024 ≤ (i 1).val ∧ (i 1).val < win1_1.index t (1 : Fin 2) * 1024 + 1024; omega

/-- The output array after the region: the input array repeated thirty times along its columns. -/
theorem final (c : Dev nD) : (dat1 V c).arrAt 1 cfg1.N = repeated (src V c) :=
  (dat1 V c).arrAt_eq_of_cover 1 (repeated (src V c)) (fun t _ => flushed_eq V c t) (covered)

end Cert.KernelIdeal.TileValue

end
-- ==== Proof.KernelValue.lean ====
/-
  The kernel's result array after the whole run, at the exact instance, as a function of the launch memory.

  The host first narrows the two arguments' float format, which changes no value over the extended reals. The first region
  leaves their product in its result buffer (ProductValue), no one else writes that buffer before the second region is
  entered, and the second region leaves that buffer repeated thirty times along its columns in the program's result
  (TileValue). So the result is the product of the two arguments, repeated thirty times along its columns.
-/
import proofs.«128283_j82454782148931_1_alg».proof.Proof.Gen.KernelIdeal.Frame
import proofs.«128283_j82454782148931_1_alg».proof.Proof.Spec
import proofs.«128283_j82454782148931_1_alg».proof.Proof.ProductValue
import proofs.«128283_j82454782148931_1_alg».proof.Proof.TileValue
import Idealize.ShloMosaic.Lib.StableHlo.Run

set_option maxRecDepth 16384

noncomputable section

namespace Cert.KernelIdeal.ResultValue

open Cert.KernelIdeal Cert.KernelIdeal.Gen Cert.TiledProduct
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first region's left array as the region finds it: the first argument, its format narrowed — the same extended reals. -/
theorem lhs_entry (c : Dev nD) : ProductValue.lhsArr (V1 m ρ) c = m ((c.tc : Thread nD τ).loc main_arg0) := by
  show StableHlo.after (hostOps0 (F := Ideal)) (W0 m ρ c) (Proc.devRef .tc main_v0) = _
  after_results <;> rfl

/-- The first region's right array as the region finds it: the second argument, its format narrowed. -/
theorem rhs_entry (c : Dev nD) : ProductValue.rhsArr (V1 m ρ) c = m ((c.tc : Thread nD τ).loc main_arg1) := by
  show StableHlo.after (hostOps0 (F := Ideal)) (W0 m ρ c) (Proc.devRef .tc main_v1) = _
  after_results <;> rfl

/-- The second region's input array as the region finds it: what the first region's write-backs left. -/
theorem src_entry (c : Dev nD) : TileValue.src (V2 m ρ) c = (dat0 (V1 m ρ) c).arrAt 2 cfg0.N :=
  W2_arr m ρ c 2

/-- The program's result array at the last boundary: the product of the two arguments, repeated thirty times along its
    columns. -/
theorem result_eq (c : Dev nD) :
    V3 m ρ c main_v3 = tiled (m ((c.tc : Thread nD τ).loc main_arg0)) (m ((c.tc : Thread nD τ).loc main_arg1)) := by
  have h3 : V3 m ρ c main_v3 = (dat1 (V2 m ρ) c).arrAt 1 cfg1.N := W3_arr m ρ c 1
  rw [h3, TileValue.final (V2 m ρ) c, src_entry, ProductValue.final (V1 m ρ) c, lhs_entry, rhs_entry]
  rfl

end Cert.KernelIdeal.ResultValue

end
-- ==== Proof.RefValue.lean ====
/-
  The reference, read as a value at the exact instance: its result is the product of the two arguments repeated thirty
  times along its columns.

  The reference multiplies the two arrays, views the 2048 × 4096 product as 1 × 2048 × 1 × 4096, repeats it along the third axis
  to 1 × 2048 × 30 × 4096, and flattens that to 2048 × 122880. Row-major, position (r, j) of the flat array is position
  (0, r, j / 4096, j mod 4096) of the repeated one (as 122880 = 30 · 4096), which holds entry (r, j mod 4096) of the product whatever the
  repetition `j / 4096`.
-/
import proofs.«128283_j82454782148931_1_alg».proof.Proof.Gen.ReferenceIdeal.Read
import proofs.«128283_j82454782148931_1_alg».proof.Proof.Spec

noncomputable section

open scoped BigOperators

namespace Cert.ReferenceIdeal.RefValue

open Cert.ReferenceIdeal Cert.ReferenceIdeal.Read Cert.TiledProduct
open Idealize.ShloMosaic Idealize.ShloMosaic.ValueIdx

/-- Through the flattening, the repetition and the four-axis view, position (r, j) of the result reads row r of the product. -/
theorem row_of (i : S2048x122880.Idx) (k : Fin 4096) :
    lidx_main_v0 (idx_main_v1 (idx_main_v2 (idx_main_v3 i))) k = ix2 (i 0 : Fin 2048) k := by
  have h0 : (i 0).val < 2048 := (i 0).isLt
  have h1 : (i 1).val < 122880 := (i 1).isLt
  funext a; apply Fin.ext
  match a with
  | ⟨0, _⟩ =>
    show ((((0 : ℕ) * 2048 + ((i 0).val * 122880 + (i 1).val) / 122880 % 2048) * 1 + 0) * 4096 + ((i 0).val * 122880 + (i 1).val) % 4096) / 4096 = (i 0).val
    omega
  | ⟨1, _⟩ => rfl

/-- … and column `j mod 4096` of the product. -/
theorem col_of (i : S2048x122880.Idx) (k : Fin 4096) :
    ridx_main_v0 (idx_main_v1 (idx_main_v2 (idx_main_v3 i))) k = ix2 k (baseCol (i 1 : Fin 122880)) := by
  have h0 : (i 0).val < 2048 := (i 0).isLt
  have h1 : (i 1).val < 122880 := (i 1).isLt
  funext a; apply Fin.ext
  match a with
  | ⟨0, _⟩ => rfl
  | ⟨1, _⟩ =>
    show ((((0 : ℕ) * 2048 + ((i 0).val * 122880 + (i 1).val) / 122880 % 2048) * 1 + 0) * 4096 + ((i 0).val * 122880 + (i 1).val) % 4096) % 4096 = (i 1).val % 4096
    omega

/-- The reference's result is the product of its arguments, repeated thirty times along its columns. -/
theorem result_eq (x0 : (⟨S2048x4096, .f32⟩ : BufTy).Contents (Elt Ideal)) (x1 : (⟨S4096x4096, .f32⟩ : BufTy).Contents (Elt Ideal)) :
    val_main_v3 (F := Ideal) x0 x1 = tiled x0 x1 := by
  funext i
  rw [val_main_v3_apply, val_main_v2_apply, val_main_v1_apply, val_main_v0_apply, tiled_apply]
  refine Finset.sum_congr rfl fun k _ => ?_
  rw [row_of, col_of]
  rfl

end Cert.ReferenceIdeal.RefValue

end
-- ==== Proof.lean ====
/-
  A blocked matrix product written thirty times side by side, against the product tiled by the host.

  The kernel program narrows the float format of its two arguments `a` (2048 × 4096) and `b` (4096 × 4096), multiplies them block by
  block on a 2 × 4 grid into a zero accumulator (each 1024 × 1024 block of the product from 1024 whole rows of `a` and 1024 whole
  columns of `b`), and then, on a 4 × 30 grid, copies each 2048 × 1024 column block `n` of the product to the column blocks
  `4·r + n`, r = 0 … 29, of the 2048 × 122880 result. The reference multiplies the two arguments once, and repeats the product along a
  new axis of length thirty that it flattens into the columns.

  Over the extended reals a change of float format changes nothing and both products are the plain sum
  `∑ k, a (r, k) · b (k, j)`, so both programs end with the one function `Cert.TiledProduct.tiled a b`: entry (r, j) is entry
  (r, j mod 4096) of the product. The kernel's side is read off its two regions in turn (the first leaves the product, the second
  its repetition), the reference's off its run one operation at a time; the only arithmetic is on indices
  (4096 = 4 · 1024 and 122880 = 30 · 4096). No law used here needs a finite entry, so the precondition is never opened. The idealized
  kernel is the kernel's own text read over the extended reals, so the idealization claim has no conjunct.
-/
import proofs.«128283_j82454782148931_1_alg».proof.Defs
import proofs.«128283_j82454782148931_1_alg».proof.Proof.Gen.Kernel
import proofs.«128283_j82454782148931_1_alg».proof.Proof.Gen.Kernel.Skeleton
import proofs.«128283_j82454782148931_1_alg».proof.Proof.Gen.Kernel.Launch
import proofs.«128283_j82454782148931_1_alg».proof.Proof.Gen.Kernel.Points
import proofs.«128283_j82454782148931_1_alg».proof.Proof.Gen.Kernel.Frame
import proofs.«128283_j82454782148931_1_alg».proof.Proof.Gen.KernelIdeal
import proofs.«128283_j82454782148931_1_alg».proof.Proof.Gen.KernelIdeal.Skeleton
import proofs.«128283_j82454782148931_1_alg».proof.Proof.Gen.KernelIdeal.Launch
import proofs.«128283_j82454782148931_1_alg».proof.Proof.Gen.KernelIdeal.Points
import proofs.«128283_j82454782148931_1_alg».proof.Proof.Gen.KernelIdeal.Frame
import proofs.«128283_j82454782148931_1_alg».proof.Proof.Gen.ReferenceIdeal
import proofs.«128283_j82454782148931_1_alg».proof.Proof.Gen.Pre_finite_inputs
import proofs.«128283_j82454782148931_1_alg».proof.Proof.Gen.ReferenceIdeal.Run
import proofs.«128283_j82454782148931_1_alg».proof.Proof.Gen.ReferenceIdeal.Read
import proofs.«128283_j82454782148931_1_alg».proof.Proof.Spec
import proofs.«128283_j82454782148931_1_alg».proof.Proof.KernelIdealRun
import proofs.«128283_j82454782148931_1_alg».proof.Proof.KernelValue
import proofs.«128283_j82454782148931_1_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel rewrites no operation of the kernel: nothing to restate. -/
theorem preserves : Cert.preserves_Kernel_KernelIdeal := trivial

/-- From memories that agree on the two arguments both programs end with the arguments' product repeated thirty times along
    its columns: the kernel by its two regions' values in turn, the reference by its run read one operation at a time. -/
theorem algebraic : Cert.algebraic_KernelIdeal_ReferenceIdeal := by
  intro m ρ m' ρ' _ hagree
  refine ⟨fun c => Cert.TiledProduct.tiled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.ResultValue.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
